-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1280000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S100000x1 : Shape := ⟨2, ![100000, 1]⟩
abbrev S1280000x64 : Shape := ⟨2, ![1280000, 64]⟩
abbrev S1x64 : Shape := ⟨2, ![1, 64]⟩
abbrev S5000x64 : Shape := ⟨2, ![5000, 64]⟩

abbrev nBuf : Space → Nat
  | .hbm => 59
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1280000, .i32⟩
  | .hbm, ⟨9, _⟩ => ⟨S1280000, .i32⟩
  | .hbm, ⟨10, _⟩ => ⟨S1x1280000, .i32⟩
  | .hbm, ⟨11, _⟩ => ⟨S1280000, .i32⟩
  | .hbm, ⟨12, _⟩ => ⟨S_, .f32⟩
  | .hbm, ⟨13, _⟩ => ⟨S1280000x1, .f32⟩
  | .hbm, ⟨14, _⟩ => ⟨S_, .f32⟩
  | .hbm, ⟨15, _⟩ => ⟨S100000x1, .f32⟩
  | .hbm, ⟨16, _⟩ => ⟨S1280000x1, .i32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .i32⟩
  | .hbm, ⟨22, _⟩ => ⟨S1280000, .i32⟩
  | .hbm, ⟨23, _⟩ => ⟨S1280000, .i1⟩
  | .hbm, ⟨24, _⟩ => ⟨S_, .i32⟩
  | .hbm, ⟨25, _⟩ => ⟨S1280000, .i32⟩
  | .hbm, ⟨26, _⟩ => ⟨S1280000, .i32⟩
  | .hbm, ⟨27, _⟩ => ⟨S1280000, .i32⟩
  | .hbm, ⟨28, _⟩ => ⟨S1280000x1, .i32⟩
  | .hbm, ⟨29, _⟩ => ⟨S1280000x64, .f32⟩
  | .hbm, ⟨30, _⟩ => ⟨S_, .f32⟩
  | .hbm, ⟨31, _⟩ => ⟨S100000x64, .f32⟩
  | .hbm, ⟨32, _⟩ => ⟨S1280000x1, .i32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S64x64, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S1280000, .i32⟩
  | .hbm, ⟨42, _⟩ => ⟨S1280000, .i1⟩
  | .hbm, ⟨43, _⟩ => ⟨S_, .i32⟩
  | .hbm, ⟨44, _⟩ => ⟨S1280000, .i32⟩
  | .hbm, ⟨45, _⟩ => ⟨S1280000, .i32⟩
  | .hbm, ⟨46, _⟩ => ⟨S1280000, .i32⟩
  | .hbm, ⟨47, _⟩ => ⟨S1280000x1, .i32⟩
  | .hbm, ⟨48, _⟩ => ⟨S1280000x64, .f32⟩
  | .hbm, ⟨49, _⟩ => ⟨S_, .f32⟩
  | .hbm, ⟨50, _⟩ => ⟨S100000x64, .f32⟩
  | .hbm, ⟨51, _⟩ => ⟨S1280000x1, .i32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S64x64, .f32⟩
  | .hbm, ⟨57, _⟩ => ⟨S1x64, .f32⟩
  | .hbm, ⟨58, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000x1 : S_.BroadcastsInDim S1280000x1 (![] : Fin 0 → Fin S1280000x1.rank)
  bcast_S_S100000x1 : S_.BroadcastsInDim S100000x1 (![] : Fin 0 → Fin S100000x1.rank)
  bcast_S1280000_S1280000x1_0 : S1280000.BroadcastsInDim S1280000x1 (![0] : Fin 1 → Fin S1280000x1.rank)
  bcast_S_S1280000 : S_.BroadcastsInDim S1280000 (![] : Fin 0 → Fin S1280000.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000x1_S1280000x1_S1280000x1_1_0_0_1_wf : ScatterDims.WF S100000x1 S1280000x1 S1280000x1 [1] [0] [0] 1
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000x1_S1280000x1_S1280000x1_1_0_0_1 : ScatterDims S100000x1 S1280000x1 S1280000x1 where
  updateWindowDims := [1]
  insertedWindowDims := [0]
  scatterDimsToOperandDims := [0]
  indexVectorDim := 1
  wf := scatter_S100000x1_S1280000x1_S1280000x1_1_0_0_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000x1 : Shape := ⟨2, ![100000, 1]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1280000, .i32⟩
  | .hbm, ⟨9, _⟩ => ⟨S1280000, .i32⟩
  | .hbm, ⟨10, _⟩ => ⟨S1x1280000, .i32⟩
  | .hbm, ⟨11, _⟩ => ⟨S1280000, .i32⟩
  | .hbm, ⟨12, _⟩ => ⟨S_, .i32⟩
  | .hbm, ⟨13, _⟩ => ⟨S1280000, .i32⟩
  | .hbm, ⟨14, _⟩ => ⟨S1280000, .i1⟩
  | .hbm, ⟨15, _⟩ => ⟨S_, .i32⟩
  | .hbm, ⟨16, _⟩ => ⟨S1280000, .i32⟩
  | .hbm, ⟨17, _⟩ => ⟨S1280000, .i32⟩
  | .hbm, ⟨18, _⟩ => ⟨S1280000, .i32⟩
  | .hbm, ⟨19, _⟩ => ⟨S1280000x1, .i32⟩
  | .hbm, ⟨20, _⟩ => ⟨S1280000x64, .f32⟩
  | .hbm, ⟨21, _⟩ => ⟨S_, .f32⟩
  | .hbm, ⟨22, _⟩ => ⟨S100000x64, .f32⟩
  | .hbm, ⟨23, _⟩ => ⟨S1280000x1, .i32⟩
  | .hbm, ⟨24, _⟩ => ⟨S100000x64, .f32⟩
  | .hbm, ⟨25, _⟩ => ⟨S_, .f32⟩
  | .hbm, ⟨26, _⟩ => ⟨S1280000x1, .f32⟩
  | .hbm, ⟨27, _⟩ => ⟨S_, .f32⟩
  | .hbm, ⟨28, _⟩ => ⟨S100000x1, .f32⟩
  | .hbm, ⟨29, _⟩ => ⟨S1280000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S64x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1280000, .i32⟩
  | .hbm, ⟨49, _⟩ => ⟨S1280000, .i1⟩
  | .hbm, ⟨50, _⟩ => ⟨S_, .i32⟩
  | .hbm, ⟨51, _⟩ => ⟨S1280000, .i32⟩
  | .hbm, ⟨52, _⟩ => ⟨S1280000, .i32⟩
  | .hbm, ⟨53, _⟩ => ⟨S1280000, .i32⟩
  | .hbm, ⟨54, _⟩ => ⟨S1280000x1, .i32⟩
  | .hbm, ⟨55, _⟩ => ⟨S1280000x64, .f32⟩
  | .hbm, ⟨56, _⟩ => ⟨S_, .f32⟩
  | .hbm, ⟨57, _⟩ => ⟨S100000x64, .f32⟩
  | .hbm, ⟨58, _⟩ => ⟨S1280000x1, .i32⟩
  | .hbm, ⟨59, _⟩ => ⟨S100000x64, .f32⟩
  | .hbm, ⟨60, _⟩ => ⟨S_, .f32⟩
  | .hbm, ⟨61, _⟩ => ⟨S1280000x1, .f32⟩
  | .hbm, ⟨62, _⟩ => ⟨S_, .f32⟩
  | .hbm, ⟨63, _⟩ => ⟨S100000x1, .f32⟩
  | .hbm, ⟨64, _⟩ => ⟨S1280000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S64x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S64x64, .f32⟩
  | .hbm, ⟨77, _⟩ => ⟨S100000x64, .f32⟩
  | .hbm, ⟨78, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S_S1280000x1 : S_.BroadcastsInDim S1280000x1 (![] : Fin 0 → Fin S1280000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  scatter_S100000x1_S1280000x1_S1280000x1_1_0_0_1_wf : ScatterDims.WF S100000x1 S1280000x1 S1280000x1 [1] [0] [0] 1
  dot_S100000x64_S64x64_S100000x64_1_0_0_1_n_n_wf : DotDims.WF S100000x64 S64x64 S100000x64 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def scatter_S100000x1_S1280000x1_S1280000x1_1_0_0_1 : ScatterDims S100000x1 S1280000x1 S1280000x1 where
  updateWindowDims := [1]
  insertedWindowDims := [0]
  scatterDimsToOperandDims := [0]
  indexVectorDim := 1
  wf := scatter_S100000x1_S1280000x1_S1280000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Tile.lean ====
/-
  One grid point's arithmetic, read at an entry of the 5000 × 64 tile.

  The body multiplies the tile of neighbour means by the transposed left weights and the tile of features by the transposed
  right weights — two contractions over the 64 input channels, each into a zero accumulator, the narrowing of the operands
  to bf16 being the identity on extended reals —, adds the bias row broadcast down the tile between them, and (first layer
  only) takes the maximum with zero.  At tile row `p`, channel `q` this is
      (∑ₖ a[p,k] · wl[k,q]) + b[0,q] + (∑ₖ x[p,k] · wr[k,q]).
-/
import proofs.«148487_j1271310319672_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Sage.Tile

open Cert.KernelIdeal Cert.KernelIdeal.Gen Idealize.ShloMosaic Idealize.ShloMosaic.ValueIdx

/-- The tile contraction's operand indices, axis by axis: the left operand is read at (row of the output, contraction
    coordinate), the right at (contraction coordinate, column of the output). -/
theorem lhs_tile_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_tile_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_tile_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_tile_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A tile contraction into the zero accumulator, at (p, q): the sum over the 64 input channels. -/
theorem contract_apply {φ₁ φ₂ : FTy} (a : FVec Ideal S5000x64 φ₁) (w : FVec Ideal S64x64 φ₂) (p : Fin 5000) (q : Fin 64) :
    matmul dot_S5000x64_S64x64_S5000x64_1_0_0_1_n_n none a w (constant S5000x64 .f32 0x00000000#32) (ix2 p q)
      = ∑ k : Fin 64, a (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_tile_0 _ _
    | ⟨1, _⟩ => exact (lhs_tile_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_tile_0 _ _).trans hk
    | ⟨1, _⟩ => exact rhs_tile_1 _ _)
  rw [el, er]

/-- The bias row broadcast down the tile, at (p, q): the row's entry q. -/
theorem bias_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-- The second layer's stored tile at (p, q). -/
theorem out_apply (a x : Vec Ideal S5000x64 .f32) (wl wr : Vec Ideal S64x64 .f32) (b : Vec Ideal S1x64 .f32) (p : Fin 5000) (q : Fin 64) :
    k1_pay1 (F := Ideal) a x wl wr b (ix2 p q)
      = (∑ k : Fin 64, a (ix2 p k) * wl (ix2 k q)) + b (ix2 (0 : Fin 1) q) + ∑ k : Fin 64, x (ix2 p k) * wr (ix2 k q) := by
  unfold k1_pay1
  simp only [shapeCast_self]
  rw [addf_apply, addf_apply, contract_apply, contract_apply, bias_apply]
  rfl

/-- The first layer's stored tile at (p, q): the same, rectified. -/
theorem hidden_apply (a x : Vec Ideal S5000x64 .f32) (wl wr : Vec Ideal S64x64 .f32) (b : Vec Ideal S1x64 .f32) (p : Fin 5000) (q : Fin 64) :
    k0_pay1 (F := Ideal) a x wl wr b (ix2 p q)
      = max ((∑ k : Fin 64, a (ix2 p k) * wl (ix2 k q)) + b (ix2 (0 : Fin 1) q) + ∑ k : Fin 64, x (ix2 p k) * wr (ix2 k q)) 0 := by
  unfold k0_pay1
  simp only [shapeCast_self]
  rw [maximumf_apply, addf_apply, addf_apply, contract_apply, contract_apply, bias_apply, broadcast_apply]
  show max _ (Ideal.ofBits .f32 0x00000000#32) = _
  rw [Ideal.ofBits_zero_f32]
  rfl

end Cert.Sage.Tile

end
-- ==== Proof.Combine.lean ====
/-
  The dense half of one SAGE layer, as ONE function of whole arrays, index by index.

  For node features `X` and neighbour means `A` (both 100000 × 64), transposed weights `WlT`, `WrT` (64 × 64, input
  channel first) and a bias `b` (one entry per output channel), the layer's output at node `r`, channel `q` is
      (∑ₖ A[r,k] · WlT[k,q]) + b[q] + (∑ₖ X[r,k] · WrT[k,q]),
  summed and added on the extended reals in exactly this order.  `relu` is the maximum with zero, entry by entry.
-/
import Idealize.ShloMosaic.PureOps.Ideal
import Idealize.ShloMosaic.Lib.ValueIdx

noncomputable section

open scoped BigOperators

namespace Cert.Sage

open Idealize.ShloMosaic Idealize.ShloMosaic.ValueIdx

/-- Node features: 100000 nodes, 64 channels. -/
abbrev Nodes : Shape := ⟨2, ![100000, 64]⟩
/-- A weight matrix, 64 × 64. -/
abbrev Wts : Shape := ⟨2, ![64, 64]⟩

/-- The layer's entry at node `r`, output channel `q`. -/
def denseAt (A X : Nodes.Idx → EReal) (WlT WrT : Wts.Idx → EReal) (b : Fin 64 → EReal) (r : Fin 100000) (q : Fin 64) : EReal :=
  (∑ k : Fin 64, A (ix2 r k) * WlT (ix2 k q)) + b q + ∑ k : Fin 64, X (ix2 r k) * WrT (ix2 k q)

/-- The layer's whole output array. -/
def dense (A X : Nodes.Idx → EReal) (WlT WrT : Wts.Idx → EReal) (b : Fin 64 → EReal) : Nodes.Idx → EReal :=
  fun p => denseAt A X WlT WrT b ⟨(p 0).val, idx2_lt0 p⟩ ⟨(p 1).val, idx2_lt1 p⟩

theorem dense_ix2 (A X : Nodes.Idx → EReal) (WlT WrT : Wts.Idx → EReal) (b : Fin 64 → EReal) (r : Fin 100000) (q : Fin 64) :
    dense A X WlT WrT b (ix2 r q) = denseAt A X WlT WrT b r q := rfl

/-- The rectifier, entry by entry: the maximum with zero. -/
def relu (H : Nodes.Idx → EReal) : Nodes.Idx → EReal := fun p => max (H p) 0

theorem relu_apply (H : Nodes.Idx → EReal) (p : Nodes.Idx) : relu H p = max (H p) 0 := rfl

end Cert.Sage

end
-- ==== Proof.Layer1.lean ====
/-
  The first pallas_call as ONE whole-array function: its result array ends holding the rectified dense layer of the arrays it reads.

  The grid has 20 points; point `t` reads rows 5000·t … 5000·t + 4999 of the neighbour means and of the features, the two
  weight matrices and the bias row whole, and writes back rows 5000·t … 5000·t + 4999 of the result.  Entry (p, q) of what it
  writes is the layer's entry at node 5000·t + p, channel q, so every write-back is its own block of ONE whole array, and the
  twenty blocks tile the 100000 rows: the result array ends holding that array.
-/
import proofs.«148487_j1271310319672_1_alg».proof.Proof.Gen.KernelIdeal.Frame
import proofs.«148487_j1271310319672_1_alg».proof.Proof.Tile
import proofs.«148487_j1271310319672_1_alg».proof.Proof.Combine
import Idealize.ShloMosaic.Lib.Pipeline.Value

noncomputable section

open scoped BigOperators

namespace Cert.Sage.Layer1

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The arrays the region reads as it finds them: neighbour means, features, the two transposed weight matrices, the bias row. -/
abbrev meanArr (c : Dev nD) : Nodes.Idx → EReal := V c main_v21
abbrev featArr (c : Dev nD) : Nodes.Idx → EReal := V c main_arg0
abbrev wlArr (c : Dev nD) : Wts.Idx → EReal := V c main_v22
abbrev wrArr (c : Dev nD) : Wts.Idx → EReal := V c main_v23
abbrev biasArr (c : Dev nD) : (⟨2, ![1, 64]⟩ : Shape).Idx → EReal := V c main_v24

/-- What the region leaves in its result array: the layer of those arrays. -/
def result (c : Dev nD) : Nodes.Idx → EReal :=
  relu (dense (meanArr V c) (featArr V c) (wlArr V c) (wrArr V c) (fun q => biasArr V c (ix2 (0 : Fin 1) q)))

/-- The five input blocks at point `t`, at their literal types. -/
abbrev meanBlk (c : Dev nD) (t : Fin cfg0.N) : Vec Ideal S5000x64 .f32 := iblk0 V c 0 t
abbrev featBlk (c : Dev nD) (t : Fin cfg0.N) : Vec Ideal S5000x64 .f32 := iblk0 V c 1 t
abbrev wlBlk (c : Dev nD) (t : Fin cfg0.N) : Vec Ideal S64x64 .f32 := iblk0 V c 2 t
abbrev biasBlk (c : Dev nD) (t : Fin cfg0.N) : Vec Ideal S1x64 .f32 := iblk0 V c 3 t
abbrev wrBlk (c : Dev nD) (t : Fin cfg0.N) : Vec Ideal S64x64 .f32 := iblk0 V c 4 t

/-- The printed index maps over the grid: the row-tiled windows sit at block row `t`, the whole-array windows at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 20 :=
  lt_of_lt_of_eq t.isLt (show cfg0.N = 20 from N_0)

/-- Row p of the means' block at point t is row 5000·t + p of the means. -/
theorem meanBlk_apply (c : Dev nD) (t : Fin cfg0.N) (p : Fin 5000) (k : Fin 64) (h : 5000 * t.val + p.val < 100000) :
    meanBlk V c t (ix2 p k) = meanArr V c (ix2 ⟨5000 * t.val + p.val, h⟩ k) := by
  obtain ⟨e0, e1, -⟩ := idx_facts t
  show ((cfg0.win 0).blk t).view.read (Elt Ideal) (V c (Pipeline.arrRef spec0 0)) (ix2 p k) = _
  rw [View.read_apply]
  show V c main_v21 _ = V c main_v21 _
  congr 1
  funext a; apply Fin.ext
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- Row p of the features' block at point t is row 5000·t + p of the features. -/
theorem featBlk_apply (c : Dev nD) (t : Fin cfg0.N) (p : Fin 5000) (k : Fin 64) (h : 5000 * t.val + p.val < 100000) :
    featBlk V c t (ix2 p k) = featArr V c (ix2 ⟨5000 * t.val + p.val, h⟩ k) := by
  obtain ⟨-, -, e0, e1, -⟩ := idx_facts t
  show ((cfg0.win 1).blk t).view.read (Elt Ideal) (V c (Pipeline.arrRef spec0 1)) (ix2 p k) = _
  rw [View.read_apply]
  show V c main_arg0 _ = V c main_arg0 _
  congr 1
  funext a; apply Fin.ext
  match a with
  | ⟨0, _⟩ => show win0_1.index t (0 : Fin 2) * 5000 + 1 * p.val = 5000 * t.val + p.val; rw [e0]; omega
  | ⟨1, _⟩ => show win0_1.index t (1 : Fin 2) * 64 + 1 * k.val = k.val; rw [e1]; omega

/-- The weight and bias blocks are the whole arrays at every point. -/
theorem wlBlk_apply (c : Dev nD) (t : Fin cfg0.N) (k q : Fin 64) : wlBlk V c t (ix2 k q) = wlArr V c (ix2 k q) := by
  obtain ⟨-, -, -, -, e0, e1, -⟩ := idx_facts t
  show ((cfg0.win 2).blk t).view.read (Elt Ideal) (V c (Pipeline.arrRef spec0 2)) (ix2 k q) = _
  rw [View.read_apply]
  show V c main_v22 _ = V c main_v22 _
  congr 1
  funext a; apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

theorem biasBlk_apply (c : Dev nD) (t : Fin cfg0.N) (q : Fin 64) : biasBlk V c t (ix2 (0 : Fin 1) q) = biasArr V c (ix2 (0 : Fin 1) q) := by
  obtain ⟨-, -, -, -, -, -, e0, e1, -⟩ := idx_facts t
  show ((cfg0.win 3).blk t).view.read (Elt Ideal) (V c (Pipeline.arrRef spec0 3)) (ix2 (0 : Fin 1) q) = _
  rw [View.read_apply]
  show V c main_v24 _ = V c main_v24 _
  congr 1
  funext a; apply Fin.ext
  match a with
  | ⟨0, _⟩ => show win0_3.index t (0 : Fin 2) * 1 + 1 * 0 = 0; rw [e0]
  | ⟨1, _⟩ => show win0_3.index t (1 : Fin 2) * 64 + 1 * q.val = q.val; rw [e1]; omega

theorem wrBlk_apply (c : Dev nD) (t : Fin cfg0.N) (k q : Fin 64) : wrBlk V c t (ix2 k q) = wrArr V c (ix2 k q) := by
  obtain ⟨-, -, -, -, -, -, -, -, e0, e1, -⟩ := idx_facts t
  show ((cfg0.win 4).blk t).view.read (Elt Ideal) (V c (Pipeline.arrRef spec0 4)) (ix2 k q) = _
  rw [View.read_apply]
  show V c main_v23 _ = V c main_v23 _
  congr 1
  funext a; apply Fin.ext
  match a with
  | ⟨0, _⟩ => show win0_4.index t (0 : Fin 2) * 64 + 1 * k.val = k.val; rw [e0]; omega
  | ⟨1, _⟩ => show win0_4.index t (1 : Fin 2) * 64 + 1 * q.val = q.val; rw [e1]; omega

/-- What point `t` writes back is block `t` of `result`. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have ht := point_lt t
  have hp : 5000 * t.val + p.val < 100000 := by have := p.isLt; omega
  obtain ⟨-, -, -, -, -, -, -, -, -, -, e0, e1⟩ := idx_facts t
  have hemb : ((cfg0.win 5).blk t).view.emb (ix2 p q) = ix2 ⟨5000 * t.val + p.val, hp⟩ q := by
    funext a; apply Fin.ext
    match a with
    | ⟨0, _⟩ => show win0_5.index t (0 : Fin 2) * 5000 + 1 * p.val = 5000 * t.val + p.val; rw [e0]; omega
    | ⟨1, _⟩ => show win0_5.index t (1 : Fin 2) * 64 + 1 * q.val = q.val; rw [e1]; omega
  show k0_pay1 (F := Ideal) (meanBlk V c t) (featBlk V c t) (wlBlk V c t) (wrBlk V c t) (biasBlk V c t) (ix2 p q)
    = result V c (((cfg0.win 5).blk t).view.emb (ix2 p q))
  rw [hemb]
  refine (Tile.hidden_apply (meanBlk V c t) (featBlk V c t) (wlBlk V c t) (wrBlk V c t) (biasBlk V c t) p q).trans ?_
  unfold result; rw [relu_apply, dense_ix2]; unfold denseAt
  refine congrArg (max · 0) ?_
  refine congrArg₂ (· + ·) (congrArg₂ (· + ·) (Finset.sum_congr rfl fun k _ => ?_) ?_) (Finset.sum_congr rfl fun k _ => ?_)
  · rw [meanBlk_apply V c t p k hp, wlBlk_apply V c t k q]
  · exact biasBlk_apply V c t q
  · rw [featBlk_apply V c t p k hp, wrBlk_apply V c t k q]

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v25).slice (win0_5.rect t)).set ↔ _
  rw [View.set_slice_whole, Rect.mem_set_unit]
  exact Iff.rfl

/-- The twenty row blocks cover the array (row r is in block r / 5000), so it ends holding `result`. -/
theorem final (c : Dev nD) : (dat0 V c).arrAt 5 cfg0.N = result V c :=
  (dat0 V c).arrAt_eq_of_cover 5 (result V c) (fun t _ => flushed_eq V c t) fun i => by
    have hi0 : (i 0).val < 100000 := (i 0).isLt
    have hi1 : (i 1).val < 64 := (i 1).isLt
    refine ⟨⟨(i 0).val / 5000, by rw [show cfg0.N = 20 from N_0]; omega⟩, flush0_5 _, ?_⟩
    rw [mem_blk]
    obtain ⟨-, -, -, -, -, -, -, -, -, -, e0, e1⟩ := idx_facts ⟨(i 0).val / 5000, by rw [show cfg0.N = 20 from N_0]; omega⟩
    intro a
    match a with
    | ⟨0, _⟩ =>
      show win0_5.index _ (0 : Fin 2) * 5000 ≤ (i 0).val ∧ (i 0).val < win0_5.index _ (0 : Fin 2) * 5000 + 5000
      rw [e0]; show (i 0).val / 5000 * 5000 ≤ (i 0).val ∧ (i 0).val < (i 0).val / 5000 * 5000 + 5000; omega
    | ⟨1, _⟩ =>
      show win0_5.index _ (1 : Fin 2) * 64 ≤ (i 1).val ∧ (i 1).val < win0_5.index _ (1 : Fin 2) * 64 + 64
      rw [e1]; omega

end Cert.Sage.Layer1

end
-- ==== Proof.Layer2.lean ====
/-
  The second pallas_call as ONE whole-array function: its result array ends holding the dense layer of the arrays it reads.

  The grid has 20 points; point `t` reads rows 5000·t … 5000·t + 4999 of the neighbour means and of the features, the two
  weight matrices and the bias row whole, and writes back rows 5000·t … 5000·t + 4999 of the result.  Entry (p, q) of what it
  writes is the layer's entry at node 5000·t + p, channel q, so every write-back is its own block of ONE whole array, and the
  twenty blocks tile the 100000 rows: the result array ends holding that array.
-/
import proofs.«148487_j1271310319672_1_alg».proof.Proof.Gen.KernelIdeal.Frame
import proofs.«148487_j1271310319672_1_alg».proof.Proof.Tile
import proofs.«148487_j1271310319672_1_alg».proof.Proof.Combine
import Idealize.ShloMosaic.Lib.Pipeline.Value

noncomputable section

open scoped BigOperators

namespace Cert.Sage.Layer2

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The arrays the region reads as it finds them: neighbour means, features, the two transposed weight matrices, the bias row. -/
abbrev meanArr (c : Dev nD) : Nodes.Idx → EReal := V c main_v37
abbrev featArr (c : Dev nD) : Nodes.Idx → EReal := V c main_v25
abbrev wlArr (c : Dev nD) : Wts.Idx → EReal := V c main_v38
abbrev wrArr (c : Dev nD) : Wts.Idx → EReal := V c main_v39
abbrev biasArr (c : Dev nD) : (⟨2, ![1, 64]⟩ : Shape).Idx → EReal := V c main_v40

/-- What the region leaves in its result array: the layer of those arrays. -/
def result (c : Dev nD) : Nodes.Idx → EReal :=
  dense (meanArr V c) (featArr V c) (wlArr V c) (wrArr V c) (fun q => biasArr V c (ix2 (0 : Fin 1) q))

/-- The five input blocks at point `t`, at their literal types. -/
abbrev meanBlk (c : Dev nD) (t : Fin cfg1.N) : Vec Ideal S5000x64 .f32 := iblk1 V c 0 t
abbrev featBlk (c : Dev nD) (t : Fin cfg1.N) : Vec Ideal S5000x64 .f32 := iblk1 V c 1 t
abbrev wlBlk (c : Dev nD) (t : Fin cfg1.N) : Vec Ideal S64x64 .f32 := iblk1 V c 2 t
abbrev biasBlk (c : Dev nD) (t : Fin cfg1.N) : Vec Ideal S1x64 .f32 := iblk1 V c 3 t
abbrev wrBlk (c : Dev nD) (t : Fin cfg1.N) : Vec Ideal S64x64 .f32 := iblk1 V c 4 t

/-- The printed index maps over the grid: the row-tiled windows sit at block row `t`, the whole-array windows at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 20 :=
  lt_of_lt_of_eq t.isLt (show cfg1.N = 20 from N_1)

/-- Row p of the means' block at point t is row 5000·t + p of the means. -/
theorem meanBlk_apply (c : Dev nD) (t : Fin cfg1.N) (p : Fin 5000) (k : Fin 64) (h : 5000 * t.val + p.val < 100000) :
    meanBlk V c t (ix2 p k) = meanArr V c (ix2 ⟨5000 * t.val + p.val, h⟩ k) := by
  obtain ⟨e0, e1, -⟩ := idx_facts t
  show ((cfg1.win 0).blk t).view.read (Elt Ideal) (V c (Pipeline.arrRef spec1 0)) (ix2 p k) = _
  rw [View.read_apply]
  show V c main_v37 _ = V c main_v37 _
  congr 1
  funext a; apply Fin.ext
  match a with
  | ⟨0, _⟩ => show win1_0.index t (0 : Fin 2) * 5000 + 1 * p.val = 5000 * t.val + p.val; rw [e0]; omega
  | ⟨1, _⟩ => show win1_0.index t (1 : Fin 2) * 64 + 1 * k.val = k.val; rw [e1]; omega

/-- Row p of the features' block at point t is row 5000·t + p of the features. -/
theorem featBlk_apply (c : Dev nD) (t : Fin cfg1.N) (p : Fin 5000) (k : Fin 64) (h : 5000 * t.val + p.val < 100000) :
    featBlk V c t (ix2 p k) = featArr V c (ix2 ⟨5000 * t.val + p.val, h⟩ k) := by
  obtain ⟨-, -, e0, e1, -⟩ := idx_facts t
  show ((cfg1.win 1).blk t).view.read (Elt Ideal) (V c (Pipeline.arrRef spec1 1)) (ix2 p k) = _
  rw [View.read_apply]
  show V c main_v25 _ = V c main_v25 _
  congr 1
  funext a; apply Fin.ext
  match a with
  | ⟨0, _⟩ => show win1_1.index t (0 : Fin 2) * 5000 + 1 * p.val = 5000 * t.val + p.val; rw [e0]; omega
  | ⟨1, _⟩ => show win1_1.index t (1 : Fin 2) * 64 + 1 * k.val = k.val; rw [e1]; omega

/-- The weight and bias blocks are the whole arrays at every point. -/
theorem wlBlk_apply (c : Dev nD) (t : Fin cfg1.N) (k q : Fin 64) : wlBlk V c t (ix2 k q) = wlArr V c (ix2 k q) := by
  obtain ⟨-, -, -, -, e0, e1, -⟩ := idx_facts t
  show ((cfg1.win 2).blk t).view.read (Elt Ideal) (V c (Pipeline.arrRef spec1 2)) (ix2 k q) = _
  rw [View.read_apply]
  show V c main_v38 _ = V c main_v38 _
  congr 1
  funext a; apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

theorem biasBlk_apply (c : Dev nD) (t : Fin cfg1.N) (q : Fin 64) : biasBlk V c t (ix2 (0 : Fin 1) q) = biasArr V c (ix2 (0 : Fin 1) q) := by
  obtain ⟨-, -, -, -, -, -, e0, e1, -⟩ := idx_facts t
  show ((cfg1.win 3).blk t).view.read (Elt Ideal) (V c (Pipeline.arrRef spec1 3)) (ix2 (0 : Fin 1) q) = _
  rw [View.read_apply]
  show V c main_v40 _ = V c main_v40 _
  congr 1
  funext a; apply Fin.ext
  match a with
  | ⟨0, _⟩ => show win1_3.index t (0 : Fin 2) * 1 + 1 * 0 = 0; rw [e0]
  | ⟨1, _⟩ => show win1_3.index t (1 : Fin 2) * 64 + 1 * q.val = q.val; rw [e1]; omega

theorem wrBlk_apply (c : Dev nD) (t : Fin cfg1.N) (k q : Fin 64) : wrBlk V c t (ix2 k q) = wrArr V c (ix2 k q) := by
  obtain ⟨-, -, -, -, -, -, -, -, e0, e1, -⟩ := idx_facts t
  show ((cfg1.win 4).blk t).view.read (Elt Ideal) (V c (Pipeline.arrRef spec1 4)) (ix2 k q) = _
  rw [View.read_apply]
  show V c main_v39 _ = V c main_v39 _
  congr 1
  funext a; apply Fin.ext
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-- What point `t` writes back is block `t` of `result`. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have ht := point_lt t
  have hp : 5000 * t.val + p.val < 100000 := by have := p.isLt; omega
  obtain ⟨-, -, -, -, -, -, -, -, -, -, e0, e1⟩ := idx_facts t
  have hemb : ((cfg1.win 5).blk t).view.emb (ix2 p q) = ix2 ⟨5000 * t.val + p.val, hp⟩ q := by
    funext a; apply Fin.ext
    match a with
    | ⟨0, _⟩ => show win1_5.index t (0 : Fin 2) * 5000 + 1 * p.val = 5000 * t.val + p.val; rw [e0]; omega
    | ⟨1, _⟩ => show win1_5.index t (1 : Fin 2) * 64 + 1 * q.val = q.val; rw [e1]; omega
  show k1_pay1 (F := Ideal) (meanBlk V c t) (featBlk V c t) (wlBlk V c t) (wrBlk V c t) (biasBlk V c t) (ix2 p q)
    = result V c (((cfg1.win 5).blk t).view.emb (ix2 p q))
  rw [hemb]
  refine (Tile.out_apply (meanBlk V c t) (featBlk V c t) (wlBlk V c t) (wrBlk V c t) (biasBlk V c t) p q).trans ?_
  unfold result; rw [dense_ix2]; unfold denseAt
  refine congrArg₂ (· + ·) (congrArg₂ (· + ·) (Finset.sum_congr rfl fun k _ => ?_) ?_) (Finset.sum_congr rfl fun k _ => ?_)
  · rw [meanBlk_apply V c t p k hp, wlBlk_apply V c t k q]
  · exact biasBlk_apply V c t q
  · rw [featBlk_apply V c t p k hp, wrBlk_apply V c t k q]

/-- An index of the result array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- The twenty row blocks cover the array (row r is in block r / 5000), so it ends holding `result`. -/
theorem final (c : Dev nD) : (dat1 V c).arrAt 5 cfg1.N = result V c :=
  (dat1 V c).arrAt_eq_of_cover 5 (result V c) (fun t _ => flushed_eq V c t) fun i => by
    have hi0 : (i 0).val < 100000 := (i 0).isLt
    have hi1 : (i 1).val < 64 := (i 1).isLt
    refine ⟨⟨(i 0).val / 5000, by rw [show cfg1.N = 20 from N_1]; omega⟩, flush1_5 _, ?_⟩
    rw [mem_blk]
    obtain ⟨-, -, -, -, -, -, -, -, -, -, e0, e1⟩ := idx_facts ⟨(i 0).val / 5000, by rw [show cfg1.N = 20 from N_1]; omega⟩
    intro a
    match a with
    | ⟨0, _⟩ =>
      show win1_5.index _ (0 : Fin 2) * 5000 ≤ (i 0).val ∧ (i 0).val < win1_5.index _ (0 : Fin 2) * 5000 + 5000
      rw [e0]; show (i 0).val / 5000 * 5000 ≤ (i 0).val ∧ (i 0).val < (i 0).val / 5000 * 5000 + 5000; omega
    | ⟨1, _⟩ =>
      show win1_5.index _ (1 : Fin 2) * 64 ≤ (i 1).val ∧ (i 1).val < win1_5.index _ (1 : Fin 2) * 64 + 64
      rw [e1]; omega

end Cert.Sage.Layer2

end
-- ==== Proof.RefStages.lean ====
/-
  The reference, read stage by stage: each of its two SAGE layers is the neighbour mean followed by `dense`.

  The reference forms  mean @ W_lᵀ + b + x @ W_rᵀ  with two host contractions over the 64 input channels; read at node `r`,
  channel `q` each contraction is the sum over `k` of the left array at (r, k) times the transposed weight at (k, q), the bias
  is broadcast along the rows, and the three terms are added in the order written: this is `denseAt`.  Between the layers
  the reference takes the maximum with a zero splat: `relu`.
-/
import proofs.«148487_j1271310319672_1_alg».proof.Proof.Gen.ReferenceIdeal.Read
import proofs.«148487_j1271310319672_1_alg».proof.Proof.Combine

noncomputable section

open scoped BigOperators

namespace Cert.Sage.Ref

open Cert.ReferenceIdeal Cert.ReferenceIdeal.Read Idealize.ShloMosaic Idealize.ShloMosaic.ValueIdx Cert.Sage

/-- The bias, broadcast to a row and then along the nodes, read at (r, q), is the bias at q. -/
theorem bias_idx (r : Fin 100000) (q : Fin 64) : idx_main_v24 (idx_main_v25 (ix2 r q)) = ix1 q :=
  funext fun a => Fin.ext (by match a with | ⟨0, _⟩ => rfl)

theorem bias_idx' (r : Fin 100000) (q : Fin 64) : idx_main_v51 (idx_main_v52 (ix2 r q)) = ix1 q :=
  funext fun a => Fin.ext (by match a with | ⟨0, _⟩ => rfl)

/-- The contractions' operand indices at output (r, q) and contraction coordinate k: (r, k) on the left, (k, q) on the right. -/
theorem lidx23 (r : Fin 100000) (q k : Fin 64) : lidx_main_v23 (ix2 r q) k = ix2 r k :=
  funext fun a => Fin.ext (by match a with | ⟨0, _⟩ => rfl | ⟨1, _⟩ => rfl)
theorem ridx23 (r : Fin 100000) (q k : Fin 64) : ridx_main_v23 (ix2 r q) k = ix2 k q :=
  funext fun a => Fin.ext (by match a with | ⟨0, _⟩ => rfl | ⟨1, _⟩ => rfl)
theorem lidx28 (r : Fin 100000) (q k : Fin 64) : lidx_main_v28 (ix2 r q) k = ix2 r k :=
  funext fun a => Fin.ext (by match a with | ⟨0, _⟩ => rfl | ⟨1, _⟩ => rfl)
theorem ridx28 (r : Fin 100000) (q k : Fin 64) : ridx_main_v28 (ix2 r q) k = ix2 k q :=
  funext fun a => Fin.ext (by match a with | ⟨0, _⟩ => rfl | ⟨1, _⟩ => rfl)
theorem lidx50 (r : Fin 100000) (q k : Fin 64) : lidx_main_v50 (ix2 r q) k = ix2 r k :=
  funext fun a => Fin.ext (by match a with | ⟨0, _⟩ => rfl | ⟨1, _⟩ => rfl)
theorem ridx50 (r : Fin 100000) (q k : Fin 64) : ridx_main_v50 (ix2 r q) k = ix2 k q :=
  funext fun a => Fin.ext (by match a with | ⟨0, _⟩ => rfl | ⟨1, _⟩ => rfl)
theorem lidx55 (r : Fin 100000) (q k : Fin 64) : lidx_main_v55 (ix2 r q) k = ix2 r k :=
  funext fun a => Fin.ext (by match a with | ⟨0, _⟩ => rfl | ⟨1, _⟩ => rfl)
theorem ridx55 (r : Fin 100000) (q k : Fin 64) : ridx_main_v55 (ix2 r q) k = ix2 k q :=
  funext fun a => Fin.ext (by match a with | ⟨0, _⟩ => rfl | ⟨1, _⟩ => rfl)

variable (x0 : (⟨S100000x64, .f32⟩ : BufTy).Contents (Elt Ideal)) (x1 : (⟨S2x1280000, .i32⟩ : BufTy).Contents (Elt Ideal))
  (x2 : (⟨S64x64, .f32⟩ : BufTy).Contents (Elt Ideal)) (x3 : (⟨S64, .f32⟩ : BufTy).Contents (Elt Ideal))
  (x4 x5 : (⟨S64x64, .f32⟩ : BufTy).Contents (Elt Ideal)) (x6 : (⟨S64, .f32⟩ : BufTy).Contents (Elt Ideal))
  (x7 : (⟨S64x64, .f32⟩ : BufTy).Contents (Elt Ideal))

/-- The first layer before the rectifier: `dense` of the neighbour mean of the features and the features. -/
theorem layer1 : val_main_v29 (F := Ideal) x0 x1 x2 x3 x4
    = dense (val_main_v21 (F := Ideal) x0 x1) x0 (val_main_v22 (F := Ideal) x2) (val_main_v27 (F := Ideal) x4) (fun q => x3 (ix1 q)) := by
  funext i
  obtain ⟨r, q, rfl⟩ : ∃ (r : Fin 100000) (q : Fin 64), i = ix2 r q := ⟨i 0, i 1, eq_ix2 i⟩
  rw [val_main_v29_apply, val_main_v26_apply, val_main_v23_apply, val_main_v25_apply, val_main_v24_apply, val_main_v28_apply,
    dense_ix2]
  simp only [lidx23, ridx23, lidx28, ridx28, bias_idx]
  rfl

/-- The hidden features: the rectified first layer. -/
theorem hidden : val_main_v30 (F := Ideal) x0 x1 x2 x3 x4 = relu (val_main_v29 (F := Ideal) x0 x1 x2 x3 x4) := by
  funext i
  rw [val_main_v30_apply, val_main_call0_v0_apply, val_main_call0_cst_apply, relu_apply]
  show max _ (Ideal.ofBits .f32 0x00000000#32) = _
  rw [Ideal.ofBits_zero_f32]

/-- The second layer: `dense` of the neighbour mean of the hidden features and the hidden features. -/
theorem layer2 : val_main_v56 (F := Ideal) x0 x1 x2 x3 x4 x5 x6 x7
    = dense (val_main_v48 (F := Ideal) x0 x1 x2 x3 x4) (val_main_v30 (F := Ideal) x0 x1 x2 x3 x4)
        (val_main_v49 (F := Ideal) x5) (val_main_v54 (F := Ideal) x7) (fun q => x6 (ix1 q)) := by
  funext i
  obtain ⟨r, q, rfl⟩ : ∃ (r : Fin 100000) (q : Fin 64), i = ix2 r q := ⟨i 0, i 1, eq_ix2 i⟩
  rw [val_main_v56_apply, val_main_v53_apply, val_main_v50_apply, val_main_v52_apply, val_main_v51_apply, val_main_v55_apply,
    dense_ix2]
  simp only [lidx50, ridx50, lidx55, ridx55, bias_idx']
  rfl

end Cert.Sage.Ref

end
-- ==== Proof.Stages.lean ====
/-
  The host operations around the two pallas_calls, read as whole-array functions.

  Both programs form the NEIGHBOUR MEAN of a feature array `H` along the edge list `e` with the same host operations:
  the source ids (row 0 of `e`, a negative id moved up by the node count) gather rows of `H`, the rows are added into
  the destination ids' rows (row 1 of `e`), and the sums are divided by the in-degree clamped below at one.  It is kept
  here as ONE function `meanAgg H e`, never opened: the kernel's program applies it to the features and then to the first
  region's result, the reference to the features and then to its own hidden features.  The weights reach the regions
  transposed and the bias as a one-row matrix, in both programs.
-/
import proofs.«148487_j1271310319672_1_alg».proof.Proof.Gen.KernelIdeal.Frame
import proofs.«148487_j1271310319672_1_alg».proof.Proof.Gen.ReferenceIdeal.Read
import proofs.«148487_j1271310319672_1_alg».proof.Proof.Layer1
import proofs.«148487_j1271310319672_1_alg».proof.Proof.Layer2
import proofs.«148487_j1271310319672_1_alg».proof.Proof.RefStages

noncomputable section

namespace Cert.Sage.Host

open Idealize.ShloMosaic Idealize.ShloMosaic.TcCoe Idealize.ShloMosaic.ValueIdx Idealize.SL.Sem Cert.Sage

/-- The neighbour mean of `H` along the edges `e`. -/
def meanAgg (H : FVec Ideal Cert.ReferenceIdeal.S100000x64 .f32)
    (e : (⟨Cert.ReferenceIdeal.S2x1280000, .i32⟩ : BufTy).Contents (Elt Ideal)) :
    FVec Ideal Cert.ReferenceIdeal.S100000x64 .f32 :=
  Host.divf (F := Ideal)
    (Host.scatterAdd (F := Ideal) Cert.ReferenceIdeal.scatter_S100000x64_S1280000x1_S1280000x64_1_0_0_1
      (Cert.ReferenceIdeal.Read.val_main_v11 (F := Ideal)) (Cert.ReferenceIdeal.Read.val_main_v12 (F := Ideal) e)
      (Host.gather Cert.ReferenceIdeal.gather_S100000x64_S1280000x1_S1280000x64_1_0_n_n_0_1_164 H
        (Cert.ReferenceIdeal.Read.val_main_v9 (F := Ideal) e)))
    (Cert.ReferenceIdeal.Read.val_main_v20 (F := Ideal) e)

/-! ## The reference's two neighbour means -/

section Reference
open Cert.ReferenceIdeal Cert.ReferenceIdeal.Read

theorem ref_mean1 (x0 : (⟨S100000x64, .f32⟩ : BufTy).Contents (Elt Ideal)) (x1 : (⟨S2x1280000, .i32⟩ : BufTy).Contents (Elt Ideal)) :
    val_main_v21 (F := Ideal) x0 x1 = meanAgg x0 x1 := rfl

theorem ref_mean2 (x0 : (⟨S100000x64, .f32⟩ : BufTy).Contents (Elt Ideal)) (x1 : (⟨S2x1280000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v48 (F := Ideal) x0 x1 x2 x3 x4 = meanAgg (val_main_v30 (F := Ideal) x0 x1 x2 x3 x4) x1 := rfl

end Reference

/-! ## The kernel program's host stretches -/

section Kernel
open Cert.KernelIdeal Cert.KernelIdeal.Gen

variable (m : (ℓ : Loc nD τ sig) → Buf (Elt Ideal) ℓ) (ρ : Dev nD → PrngReg)

set_option maxHeartbeats 8000000 in
/-- Before the first region: the neighbour mean of the features. -/
theorem entry1_mean (c : Dev nD) :
    V1 m ρ c main_v21 = meanAgg (m ((c : Thread nD τ).loc main_arg0)) (m ((c : Thread nD τ).loc main_arg1)) := by
  dsimp only [V1, W1, hostOps0]
  after_results_simp
  rfl

set_option maxHeartbeats 8000000 in
/-- The features reach the first region as launched. -/
theorem entry1_feat (c : Dev nD) : V1 m ρ c main_arg0 = m ((c : Thread nD τ).loc main_arg0) := by
  dsimp only [V1, W1, hostOps0]
  after_results_simp

set_option maxHeartbeats 8000000 in
/-- The first layer's weights reach it transposed. -/
theorem entry1_wl (c : Dev nD) :
    V1 m ρ c main_v22 = Cert.ReferenceIdeal.Read.val_main_v22 (F := Ideal) (m ((c : Thread nD τ).loc main_arg2)) := by
  dsimp only [V1, W1, hostOps0]
  after_results_simp
  rfl

set_option maxHeartbeats 8000000 in
theorem entry1_wr (c : Dev nD) :
    V1 m ρ c main_v23 = Cert.ReferenceIdeal.Read.val_main_v27 (F := Ideal) (m ((c : Thread nD τ).loc main_arg4)) := by
  dsimp only [V1, W1, hostOps0]
  after_results_simp
  rfl

set_option maxHeartbeats 8000000 in
/-- The first layer's bias reaches it as a one-row matrix: its entry (0, q) is the bias at q. -/
theorem entry1_bias (c : Dev nD) (q : Fin 64) :
    (V1 m ρ c main_v24 : S1x64.Idx → EReal) (ix2 (0 : Fin 1) q) = (m ((c : Thread nD τ).loc main_arg3) : S64.Idx → EReal) (ix1 q) := by
  have e : (V1 m ρ c main_v24 : S1x64.Idx → EReal) = shapeCast S1x64 (m ((c : Thread nD τ).loc main_arg3) : S64.Idx → EReal) shapeCasts_S64_S1x64 := by
    dsimp only [V1, W1, hostOps0]
    after_results_simp
    rfl
  rw [e]
  exact shapeCast_apply _ shapeCasts_S64_S1x64 (ix2 (0 : Fin 1) q) (ix1 q) (by
    rw [Shape.rowMajor_val_two, Shape.rowMajor_val_one]; show q.val = 0 * 64 + q.val; omega)

/-- THE HIDDEN FEATURES: the first region's result array is the reference's rectified first layer of the launch arguments. -/
theorem hidden_eq (c : Dev nD) :
    Layer1.result (V1 m ρ) c = Cert.ReferenceIdeal.Read.val_main_v30 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  rw [Ref.hidden, Ref.layer1, ref_mean1]
  unfold Layer1.result
  dsimp only [Layer1.meanArr, Layer1.featArr, Layer1.wlArr, Layer1.wrArr, Layer1.biasArr]
  rw [entry1_mean, entry1_feat, entry1_wl, entry1_wr]
  refine congrArg relu (congrArg (dense _ _ _ _) (funext fun q => ?_))
  exact entry1_bias m ρ c q

/-- At the first region's exit its result array holds the hidden features. -/
theorem exit1_hidden (c : Dev nD) :
    W2 m ρ c (Proc.devRef .tc main_v25) = Cert.ReferenceIdeal.Read.val_main_v30 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) :=
  ((W2_arr m ρ c 5).trans (Layer1.final (V1 m ρ) c)).trans (hidden_eq m ρ c)

set_option maxHeartbeats 8000000 in
/-- The edge list's two rows, and the clamped in-degree, are still there at the first region's exit. -/
theorem exit1_src (c : Dev nD) :
    W2 m ρ c (Proc.devRef .tc main_v1) = Cert.ReferenceIdeal.Read.val_main_v1 (F := Ideal) (m ((c : Thread nD τ).loc main_arg1)) :=
  (W2_of_ne m ρ c main_v1 (by decide)).trans (by
    dsimp only [W1, hostOps0]
    after_results_simp
    rfl)

set_option maxHeartbeats 8000000 in
theorem exit1_dst (c : Dev nD) :
    W2 m ρ c (Proc.devRef .tc main_v3) = Cert.ReferenceIdeal.Read.val_main_v3 (F := Ideal) (m ((c : Thread nD τ).loc main_arg1)) :=
  (W2_of_ne m ρ c main_v3 (by decide)).trans (by
    dsimp only [W1, hostOps0]
    after_results_simp
    rfl)

set_option maxHeartbeats 8000000 in
theorem exit1_deg (c : Dev nD) :
    W2 m ρ c (Proc.devRef .tc main_v9) = Cert.ReferenceIdeal.Read.val_main_v19 (F := Ideal) (m ((c : Thread nD τ).loc main_arg1)) :=
  (W2_of_ne m ρ c main_v9 (by decide)).trans (by
    dsimp only [W1, hostOps0]
    after_results_simp
    rfl)

set_option maxHeartbeats 8000000 in
/-- The launch arguments the second stretch reads are as launched at the first region's exit. -/
theorem exit1_arg5 (c : Dev nD) : W2 m ρ c (Proc.devRef .tc main_arg5) = m ((c : Thread nD τ).loc main_arg5) :=
  (W2_of_ne m ρ c main_arg5 (by decide)).trans (by
    dsimp only [W1, hostOps0]
    after_results_simp)
set_option maxHeartbeats 8000000 in
theorem exit1_arg6 (c : Dev nD) : W2 m ρ c (Proc.devRef .tc main_arg6) = m ((c : Thread nD τ).loc main_arg6) :=
  (W2_of_ne m ρ c main_arg6 (by decide)).trans (by
    dsimp only [W1, hostOps0]
    after_results_simp)
set_option maxHeartbeats 8000000 in
theorem exit1_arg7 (c : Dev nD) : W2 m ρ c (Proc.devRef .tc main_arg7) = m ((c : Thread nD τ).loc main_arg7) :=
  (W2_of_ne m ρ c main_arg7 (by decide)).trans (by
    dsimp only [W1, hostOps0]
    after_results_simp)

set_option maxHeartbeats 8000000 in
/-- Before the second region: the neighbour mean of the hidden features. -/
theorem entry2_mean (c : Dev nD) :
    V3 m ρ c main_v37 = meanAgg (Cert.ReferenceIdeal.Read.val_main_v30 (F := Ideal) (m ((c : Thread nD τ).loc main_arg0))
      (m ((c : Thread nD τ).loc main_arg1)) (m ((c : Thread nD τ).loc main_arg2)) (m ((c : Thread nD τ).loc main_arg3))
      (m ((c : Thread nD τ).loc main_arg4))) (m ((c : Thread nD τ).loc main_arg1)) := by
  dsimp only [V3, W3, hostOps1]
  after_results_simp
  rw [exit1_hidden, exit1_src, exit1_dst, exit1_deg]
  rfl

set_option maxHeartbeats 8000000 in
/-- The hidden features reach the second region as the first left them. -/
theorem entry2_feat (c : Dev nD) :
    V3 m ρ c main_v25 = Cert.ReferenceIdeal.Read.val_main_v30 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  dsimp only [V3, W3, hostOps1]
  after_results_simp
  exact exit1_hidden m ρ c

set_option maxHeartbeats 8000000 in
theorem entry2_wl (c : Dev nD) :
    V3 m ρ c main_v38 = Cert.ReferenceIdeal.Read.val_main_v49 (F := Ideal) (m ((c : Thread nD τ).loc main_arg5)) := by
  dsimp only [V3, W3, hostOps1]
  after_results_simp
  rw [exit1_arg5]
  rfl

set_option maxHeartbeats 8000000 in
theorem entry2_wr (c : Dev nD) :
    V3 m ρ c main_v39 = Cert.ReferenceIdeal.Read.val_main_v54 (F := Ideal) (m ((c : Thread nD τ).loc main_arg7)) := by
  dsimp only [V3, W3, hostOps1]
  after_results_simp
  rw [exit1_arg7]
  rfl

set_option maxHeartbeats 8000000 in
theorem entry2_bias (c : Dev nD) (q : Fin 64) :
    (V3 m ρ c main_v40 : S1x64.Idx → EReal) (ix2 (0 : Fin 1) q) = (m ((c : Thread nD τ).loc main_arg6) : S64.Idx → EReal) (ix1 q) := by
  have e : (V3 m ρ c main_v40 : S1x64.Idx → EReal) = shapeCast S1x64 (m ((c : Thread nD τ).loc main_arg6) : S64.Idx → EReal) shapeCasts_S64_S1x64 := by
    dsimp only [V3, W3, hostOps1]
    after_results_simp
    rw [exit1_arg6]
    rfl
  rw [e]
  exact shapeCast_apply _ shapeCasts_S64_S1x64 (ix2 (0 : Fin 1) q) (ix1 q) (by
    rw [Shape.rowMajor_val_two, Shape.rowMajor_val_one]; show q.val = 0 * 64 + q.val; omega)

/-- THE RESULT: at the last boundary the kernel program's result buffer holds the reference's second layer of the launch
    arguments. -/
theorem result_eq (c : Dev nD) :
    V4 m ρ c main_v41 = Cert.ReferenceIdeal.Read.val_main_v56 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) := by
  refine ((W4_arr m ρ c 5).trans (Layer2.final (V3 m ρ) c)).trans ?_
  rw [Ref.layer2, ref_mean2]
  unfold Layer2.result
  dsimp only [Layer2.meanArr, Layer2.featArr, Layer2.wlArr, Layer2.wrArr, Layer2.biasArr]
  rw [entry2_mean, entry2_feat, entry2_wl, entry2_wr]
  refine congrArg (dense _ _ _ _) (funext fun q => ?_)
  exact entry2_bias m ρ c q

end Kernel

end Cert.Sage.Host

end
-- ==== Proof.lean ====
/-
  Two stacked SAGE layers with mean aggregation: the Pallas program against its jnp reference, over the extended reals.

  Each layer is  out = mean_{j → i} h_j · W_lᵀ + b + h_i · W_rᵀ,  the first followed by the rectifier.  Both programs form
  the neighbour mean with the same host gather, scatter-add and division by the clamped in-degree; the kernel program then
  runs the dense half in a pallas_call tiled over 5000-row blocks of the 100000 nodes, the reference as two host
  contractions.  At the ideal instance the narrowing of the kernel's operands to bf16 is the identity and a contraction
  into a zero accumulator is the plain sum over the 64 input channels, so tile by tile the kernel writes exactly the rows
  of the reference's layer (`Cert.Sage.dense`), the sums and the three-term addition in the same order on both sides: no law
  of the extended reals beyond reading both sides index by index is used, and the precondition is never opened.

  The frames of the two kernel programs are the generated ones; the reference's frame is its generated run with the result
  dropped.  The ideal pass rewrote nothing, so there is nothing to preserve.  For the value claim the kernel program's run
  is taken with its result buffer named at the last boundary's contents, those contents are read back through the two
  regions and the host stretches between them (`Cert.Sage.Host.result_eq`), and the reference's run is read stage by stage.
-/
import proofs.«148487_j1271310319672_1_alg».proof.Defs
import proofs.«148487_j1271310319672_1_alg».proof.Proof.Gen.Kernel
import proofs.«148487_j1271310319672_1_alg».proof.Proof.Gen.Kernel.Skeleton
import proofs.«148487_j1271310319672_1_alg».proof.Proof.Gen.Kernel.Launch
import proofs.«148487_j1271310319672_1_alg».proof.Proof.Gen.Kernel.Points
import proofs.«148487_j1271310319672_1_alg».proof.Proof.Gen.Kernel.Frame
import proofs.«148487_j1271310319672_1_alg».proof.Proof.Gen.KernelIdeal
import proofs.«148487_j1271310319672_1_alg».proof.Proof.Gen.KernelIdeal.Skeleton
import proofs.«148487_j1271310319672_1_alg».proof.Proof.Gen.KernelIdeal.Launch
import proofs.«148487_j1271310319672_1_alg».proof.Proof.Gen.KernelIdeal.Points
import proofs.«148487_j1271310319672_1_alg».proof.Proof.Gen.KernelIdeal.Frame
import proofs.«148487_j1271310319672_1_alg».proof.Proof.Gen.ReferenceIdeal
import proofs.«148487_j1271310319672_1_alg».proof.Proof.Gen.ReferenceIdeal.Run
import proofs.«148487_j1271310319672_1_alg».proof.Proof.Gen.ReferenceIdeal.Read
import proofs.«148487_j1271310319672_1_alg».proof.Proof.Gen.Pre_finite_inputs
import proofs.«148487_j1271310319672_1_alg».proof.Proof.KernelRun
import proofs.«148487_j1271310319672_1_alg».proof.Proof.Stages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the reference's second layer of those arguments in
    their result buffers. -/
theorem algebraic : Cert.algebraic_KernelIdeal_ReferenceIdeal := by
  intro m ρ m' ρ' _ hagree
  refine ⟨fun c => Cert.KernelIdeal.Gen.V4 m ρ c Cert.KernelIdeal.main_v41,
    Cert.KernelIdeal.GenRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Sage.Host.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
